-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S1x8192 : Shape := ⟨2, ![1, 8192]⟩
abbrev S1 : Shape := ⟨1, ![1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S1x8192 : S_.BroadcastsInDim S1x8192 (![] : Fin 0 → Fin S1x8192.rank)
  reducesTo_S1x8192_S_d0_1 : S1x8192.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x8192 .f32) (main_arg1 : FVec F S8192x8192 .f32) (main_arg2 : FVec F S8192x8192 .f32) (main_arg3 : FVec F S1x8192 .f32) (main_arg4 : FVec F S1 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_v13 main_v16
-- ==== Kernel.lean ====
abbrev S8192x8192 : Shape := ⟨2, ![8192, 8192]⟩
abbrev S1x8192 : Shape := ⟨2, ![1, 8192]⟩
abbrev S1 : Shape := ⟨1, ![1]⟩
abbrev S8192x1 : Shape := ⟨2, ![8192, 1]⟩
abbrev S128x8192 : Shape := ⟨2, ![128, 8192]⟩
abbrev S128x1 : Shape := ⟨2, ![128, 1]⟩
abbrev S128 : Shape := ⟨1, ![128]⟩
abbrev S1x1 : Shape := ⟨2, ![1, 1]⟩

abbrev nBuf : Space → Nat
  | .hbm => 9
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S1x8192, .f32⟩
  | .hbm, ⟨4, _⟩ => ⟨S1, .f32⟩
  | .hbm, ⟨5, _⟩ => ⟨S8192x1, .f32⟩
  | .hbm, ⟨6, _⟩ => ⟨S1x1, .f32⟩
  | .hbm, ⟨7, _⟩ => ⟨S8192x1, .f32⟩
  | .hbm, ⟨8, _⟩ => ⟨S8192x1, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x8192, .f32⟩
  | .local _ .vmem, ⟨5, _⟩ => ⟨S128x1, .f32⟩
  | .local _ .vmem, ⟨6, _⟩ => ⟨S128x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .f32 = 32 ∨ (Rect.block (s := S8192x1) S128x1.size (cc0_transform_3 i) (hinb0_3 i)).WholeWords (EltTy.packing .f32)

variable [Facts₀]

abbrev win0_0 : Pipeline.Window sig grid0 :=
  Pipeline.Window.ofSpec (Memref.whole main_arg2) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S1x8192 : Shape := ⟨2, ![1, 8192]⟩
abbrev S1 : Shape := ⟨1, ![1]⟩
abbrev S_ : Shape := ⟨0, ![]⟩
abbrev S8192x1 : Shape := ⟨2, ![8192, 1]⟩
abbrev S1x1 : Shape := ⟨2, ![1, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S1x8192, .f32⟩
  | .hbm, ⟨4, _⟩ => ⟨S1, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x1, .f32⟩
  | .hbm, ⟨10, _⟩ => ⟨S8192x1, .f32⟩
  | .hbm, ⟨11, _⟩ => ⟨S1x1, .f32⟩
  | .hbm, ⟨12, _⟩ => ⟨S8192x1, .f32⟩
  | .hbm, ⟨13, _⟩ => ⟨S8192x1, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S1x8192_S8192x1_1_0 : S1x8192.Transposes [1, 0] S8192x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S8192x8192_S8192x1_S8192x1_1_0_0_1_n_n_wf : DotDims.WF S8192x8192 S8192x1 S8192x1 [1] [0] [0] [1] [] []

variable [Facts₀]

def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.BodyRow.lean ====
/-
  The kernel body's stored value, read at an index.

  At a grid point the body loads a [128, 8192] block of each matrix and the whole [1, 8192] weight row, multiplies the two
  blocks entrywise, clips below at zero, multiplies by the weight row repeated down the 128 rows, sums each row over its 8192
  lanes, and stores the 128 sums as a [128, 1] column. Read at `(p, 0)` over the extended reals the stored value is

      ∑ l, max (x0 p l · x1 p l) 0 · x2 0 l :

  the column cast keeps entry `p`, the lane sum from the zero accumulator is the plain sum over the row, the product, the
  maximum and the splat of zero are entrywise, the weight row's cast to its own shape is the identity and its broadcast reads
  the one row.
-/
import proofs.«153280_j4191888081073_1_alg».proof.Proof.Gen.KernelIdeal.Skeleton
import proofs.«153280_j4191888081073_1_alg».proof.Proof.LibRowOps
import Idealize.ShloMosaic.Lib.ValueLayout

noncomputable section

namespace Cert.KernelIdeal.Body

open Idealize.ShloMosaic Idealize.ShloMosaic.ValueIdx Cert.KernelIdeal Cert.KernelIdeal.Gen

/-- One entry of the clipped product times the repeated weight row. -/
theorem term_apply (x0 x1 : Vec Ideal S128x8192 .f32) (x2 : Vec Ideal S1x8192 .f32) (p : Fin 128) (l : Fin 8192) :
    mulf (maximumf (mulf x0 x1) (broadcast S128x8192 (Scalar.ofBits (F := Ideal) .f32 0x00000000#32)))
        (broadcastTo S128x8192 (shapeCast S1x8192 x2 shapeCasts_S1x8192_S1x8192) broadcasts_S1x8192_S128x8192) (ix2 p l)
      = max (x0 (ix2 p l) * x1 (ix2 p l)) 0 * x2 (ix2 (0 : Fin 1) l) := by
  have hw : broadcastTo S128x8192 (shapeCast S1x8192 x2 shapeCasts_S1x8192_S1x8192) broadcasts_S1x8192_S128x8192 (ix2 p l)
      = x2 (ix2 (0 : Fin 1) l) := by
    rw [shapeCast_self]
    exact broadcastTo_1b_ab_apply x2 broadcasts_S1x8192_S128x8192 p l
  have hz : (Scalar.ofBits (F := Ideal) .f32 0x00000000#32 : EReal) = 0 := Ideal.ofBits_zero_f32
  show max (x0 (ix2 p l) * x1 (ix2 p l)) (Scalar.ofBits (F := Ideal) .f32 0x00000000#32)
      * broadcastTo S128x8192 (shapeCast S1x8192 x2 shapeCasts_S1x8192_S1x8192) broadcasts_S1x8192_S128x8192 (ix2 p l) = _
  rw [hw, hz]

/-- The stored column at row `j 0`: the row's clipped products contracted with the weight row. -/
theorem pay_apply (x0 x1 : Vec Ideal S128x8192 .f32) (x2 : Vec Ideal S1x8192 .f32) (j : S128x1.Idx) :
    k0_pay1 (F := Ideal) x0 x1 x2 j = ∑ l : Fin 8192, max (x0 (ix2 (j 0) l) * x1 (ix2 (j 0) l)) 0 * x2 (ix2 (0 : Fin 1) l) := by
  obtain ⟨p, u, rfl⟩ : ∃ (p : Fin 128) (u : Fin 1), j = ix2 p u := ⟨j 0, j 1, eq_ix2 j⟩
  unfold k0_pay1
  refine (RowOps.shapeCast_a_a1_apply _ shapeCasts_S128_S128x1 p u).trans ?_
  refine (RowOps.multiReduction_add_row _ _ reduces_S128x8192_S128 _ _ p).trans ?_
  exact Finset.sum_congr rfl fun l _ => term_apply x0 x1 x2 p l

end Cert.KernelIdeal.Body

end
-- ==== Proof.Layer.lean ====
/-
  The layer's value, stated once over whole arrays.

  For matrices `adj`, `linv` of shape [8192, 8192], a row vector `w` of shape [1, 8192] and a bias `b` of shape [1], the layer's
  output column has, at row `r`,

      (∑ k, max (adj r k · linv r k) 0 · w 0 k) + b 0

  over the extended reals: the entrywise product of the two matrices, clipped below at zero, contracted along each row with
  the weight vector, plus the bias. Both programs compute exactly these terms in exactly this arrangement (a lane sum on one
  side, a matrix product with a one-column matrix on the other), so no law beyond reading each operation at an index is needed,
  and the inputs' finiteness is never used.
-/
import Idealize.ShloMosaic.PureOps.Ideal.Laws
import Idealize.ShloMosaic.Lib.ValueIdx
import Idealize.ShloMosaic.Lib.Pipeline.Value

noncomputable section

namespace Cert.Layer

open Idealize.ShloMosaic Idealize.ShloMosaic.ValueIdx

/-- Row `r` of the clipped entrywise product contracted with the weight row: `∑ k, max (adj r k · linv r k) 0 · w 0 k`,
    as a column indexed by `(r, 0)`. -/
def rowDot (adj linv : (⟨2, ![8192, 8192]⟩ : Shape).Idx → EReal) (w : (⟨2, ![1, 8192]⟩ : Shape).Idx → EReal) :
    (⟨2, ![8192, 1]⟩ : Shape).Idx → EReal :=
  fun i => ∑ k : Fin 8192, max (adj (ix2 (i 0) k) * linv (ix2 (i 0) k)) 0 * w (ix2 (0 : Fin 1) k)

/-- The layer's output column: the contracted rows plus the one bias entry. -/
def layer (adj linv : (⟨2, ![8192, 8192]⟩ : Shape).Idx → EReal) (w : (⟨2, ![1, 8192]⟩ : Shape).Idx → EReal)
    (b : (⟨1, ![1]⟩ : Shape).Idx → EReal) : (⟨2, ![8192, 1]⟩ : Shape).Idx → EReal :=
  fun i => rowDot adj linv w i + b (ix1 (0 : Fin 1))

/-- The bias as both programs spread it: a [1] vector placed on the second axis of a [1, 1] array, then that array repeated
    down the 8192 rows of a column. At every index of the column it is the one bias entry. -/
theorem bias_col_apply {α : Type} (b : (⟨1, ![1]⟩ : Shape).Idx → α)
    (h1 : (⟨1, ![1]⟩ : Shape).BroadcastsInDim ⟨2, ![1, 1]⟩ ![1])
    (h2 : (⟨2, ![1, 1]⟩ : Shape).BroadcastsInDim ⟨2, ![8192, 1]⟩ ![0, 1]) (i : (⟨2, ![8192, 1]⟩ : Shape).Idx) :
    broadcastInDim ⟨2, ![8192, 1]⟩ ![0, 1] h2 (broadcastInDim ⟨2, ![1, 1]⟩ ![1] h1 b) i = b (ix1 (0 : Fin 1)) := by
  refine (broadcastInDim_apply ![0, 1] h2 _ i (ix2 (0 : Fin 1) (0 : Fin 1)) fun a => ?_).trans ?_
  · match a with
    | ⟨0, _⟩ => show 0 = if (1 : Nat) = 1 then 0 else (i 0).val; rw [if_pos rfl]
    | ⟨1, _⟩ => show 0 = if (1 : Nat) = 1 then 0 else (i 1).val; rw [if_pos rfl]
  · refine broadcastInDim_apply ![1] h1 b (ix2 (0 : Fin 1) (0 : Fin 1)) (ix1 (0 : Fin 1)) fun a => ?_
    match a with
    | ⟨0, _⟩ => show 0 = if (1 : Nat) = 1 then 0 else 0; rw [if_pos rfl]

end Cert.Layer

end
-- ==== Proof.Blocks.lean ====
/-
  From the blocks the grid points write back to the whole output column of the region.

  The grid has 64 points. Point `t` reads rows `128·t … 128·t + 127` of each matrix (all 8192 columns) and the whole weight row,
  and writes back rows `128·t … 128·t + 127` of the [8192, 1] output column. What it writes is the restriction to those rows of
  ONE function of the whole arrays, `Cert.Layer.rowDot`: entry `(128·t + p, 0)` is the contraction of row `128·t + p` of the clipped
  product with the weight row. The 64 blocks cover every row (row `r` lies in the block of point `r / 128`), so after the run
  the whole column is `rowDot` of the arrays as the region found them.
-/
import proofs.«153280_j4191888081073_1_alg».proof.Proof.Gen.KernelIdeal.Frame
import proofs.«153280_j4191888081073_1_alg».proof.Proof.BodyRow
import proofs.«153280_j4191888081073_1_alg».proof.Proof.Layer
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ)

theorem zero_off : (![0, 0] : Fin 2 → Nat) = fun _ => 0 := funext fun a => by fin_cases a <;> rfl

/-- The block indices at a point, decided over the 64 points: the matrices' row block is the output's row block, every
    column block index is `0`, and the weight row's block never moves. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the 64 row blocks of the output is some point's. -/
theorem idx_onto : ∀ q : Fin 64, ∃ t : Fin cfg0.N, win0_3.index t = ![q.val, 0] :=
  (by decide +kernel : ∀ q : Fin 64, ∃ t : Fin grid0.N, win0_3.index t = ![q.val, 0])

/-- What point `t` writes back is block `t` of `rowDot` of the arrays as the region finds them. -/
theorem flushed_eq (c : Dev nD) (t : Fin cfg0.N) :
    (dats m 0 c).flushed 3 t = ((cfg0.win 3).blk t).view.read (Elt Ideal)
      (Cert.Layer.rowDot (V m c main_arg2) (V m c main_arg1) (V m c main_arg3)) := by
  show (cfg0.win 3).cut (grid0.coords t) ((dats m 0 c).after 3 t) = _
  rw [after0_3]
  unfold out0_3
  rw [View.canon_unit_zero zero_off]
  simp only [View.ld_unit_zero (S := S128x8192) zero_off, View.ld_unit_zero (S := S1x8192) zero_off]
  obtain ⟨e0, e1, e2, e3, e4, e5, e6⟩ := idx_facts t
  funext j
  show k0_pay1 (F := Ideal) (iblk m c 0 t) (iblk m c 1 t) (iblk m c 2 t) j
      = Cert.Layer.rowDot (V m c main_arg2) (V m c main_arg1) (V m c main_arg3) (((cfg0.win 3).blk t).view.emb j)
  refine (Body.pay_apply _ _ _ j).trans ?_
  unfold Cert.Layer.rowDot
  refine Finset.sum_congr rfl fun l _ => ?_
  have h0 : ((cfg0.win 0).blk t).view.emb (ix2 (j 0) l) = ix2 ((((cfg0.win 3).blk t).view.emb j) 0) l := by
    funext a; apply Fin.ext
    match a with
    | ⟨0, _⟩ => show win0_0.index t (0 : Fin 2) * 128 + 1 * (j 0).val = win0_3.index t (0 : Fin 2) * 128 + 1 * (j 0).val; omega
    | ⟨1, _⟩ => show win0_0.index t (1 : Fin 2) * 8192 + 1 * l.val = l.val; omega
  have h1 : ((cfg0.win 1).blk t).view.emb (ix2 (j 0) l) = ix2 ((((cfg0.win 3).blk t).view.emb j) 0) l := by
    funext a; apply Fin.ext
    match a with
    | ⟨0, _⟩ => show win0_1.index t (0 : Fin 2) * 128 + 1 * (j 0).val = win0_3.index t (0 : Fin 2) * 128 + 1 * (j 0).val; omega
    | ⟨1, _⟩ => show win0_1.index t (1 : Fin 2) * 8192 + 1 * l.val = l.val; omega
  have h2 : ((cfg0.win 2).blk t).view.emb (ix2 (0 : Fin 1) l) = ix2 (0 : Fin 1) l := by
    funext a; apply Fin.ext
    match a with
    | ⟨0, _⟩ => show win0_2.index t (0 : Fin 2) * 1 + 1 * 0 = 0; omega
    | ⟨1, _⟩ => show win0_2.index t (1 : Fin 2) * 8192 + 1 * l.val = l.val; omega
  have b0 : iblk m c 0 t (ix2 (j 0) l) = V m c main_arg2 (ix2 ((((cfg0.win 3).blk t).view.emb j) 0) l) :=
    congrArg (V m c main_arg2) h0
  have b1 : iblk m c 1 t (ix2 (j 0) l) = V m c main_arg1 (ix2 ((((cfg0.win 3).blk t).view.emb j) 0) l) :=
    congrArg (V m c main_arg1) h1
  have b2 : iblk m c 2 t (ix2 (0 : Fin 1) l) = V m c main_arg3 (ix2 (0 : Fin 1) l) :=
    congrArg (V m c main_arg3) h2
  rw [b0, b1, b2]

/-- An index of the column is in point `t`'s block iff each coordinate is in the block's range on its axis. -/
theorem mem_blk (t : Fin cfg0.N) (i : S8192x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v0).slice (win0_3.rect t)).set ↔ _
  rw [View.set_slice_whole, Rect.mem_set_unit]
  exact Iff.rfl

/-- Every row of the column is written back by some point: row `r` by the point whose row block is `r / 128`. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht⟩ := idx_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 1 ≤ (i 1).val ∧ (i 1).val < win0_3.index t (1 : Fin 2) * 1 + 1; omega

/-- The region's output column after the run: `rowDot` of the two matrices and the weight row as launched. -/
theorem final (c : Dev nD) :
    (dats m 0 c).arrAt 3 cfg0.N = Cert.Layer.rowDot (m ((c : Thread nD τ).loc main_arg2)) (m ((c : Thread nD τ).loc main_arg1))
      (m ((c : Thread nD τ).loc main_arg3)) :=
  (dats m 0 c).arrAt_eq_of_cover 3 (Cert.Layer.rowDot (V m c main_arg2) (V m c main_arg1) (V m c main_arg3))
    (fun t _ => flushed_eq m c t) cover

end Cert.KernelIdeal.Region

end
-- ==== Proof.KernelRun.lean ====
/-
  The idealized kernel program's run, with its result named.

  After the region the program spreads the one bias entry down a column and adds it to the region's output column. The
  region leaves that column at `Cert.Layer.rowDot` of the two matrices and the weight row (the blocks the 64 points write back
  cover it), the bias buffer is untouched by the region, so the sum read at an index is `Cert.Layer.layer` of the four arrays.
  Every weakly fair execution therefore terminates with the result buffer at `layer` of the arguments as launched and the
  arguments unchanged.
-/
import proofs.«153280_j4191888081073_1_alg».proof.Proof.Blocks
import Idealize.ShloMosaic.Lib.StableHlo.Run

set_option maxRecDepth 16384

noncomputable section

namespace Cert.KernelIdeal.Run

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The result buffer after the lines that follow the region: the region's column plus the bias, i.e. the layer's value. -/
theorem tail_eq (c : Dev nD) :
    Pipeline.afterTail₀ cfgs (dats m) 0 (V0 m) [hostOps1] c main_v3
      = Cert.Layer.layer (m ((c : Thread nD τ).loc main_arg2)) (m ((c : Thread nD τ).loc main_arg1))
          (m ((c : Thread nD τ).loc main_arg3)) (m ((c : Thread nD τ).loc main_arg4)) := by
  unfold Pipeline.afterTail₀
  show StableHlo.after hostOps1 _ (Proc.devRef .tc main_v3) = _
  after_results
  have hcol : Pipeline.withArrays (cfgs 0).spec c (V0 m c) (fun w => (dats m 0 c).arrAt w (cfgs 0).N) (Proc.devRef .tc main_v0)
      = Cert.Layer.rowDot (m ((c : Thread nD τ).loc main_arg2)) (m ((c : Thread nD τ).loc main_arg1)) (m ((c : Thread nD τ).loc main_arg3)) :=
    (Pipeline.withArrays_arr spec0 launch0.win.arr_inj c _ _ 3).trans (Region.final m c)
  have hbias : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  rw [hcol, hbias]
  funext i
  show Cert.Layer.rowDot _ _ _ i + broadcastInDim S8192x1 ![0, 1] bcast_S1x1_S8192x1_0_1
      (broadcastInDim S1x1 ![1] bcast_S1_S1x1_1 (m ((c : Thread nD τ).loc main_arg4))) i = _
  rw [Cert.Layer.bias_col_apply]
  rfl

/-- Every weakly fair execution of the idealized kernel program terminates with the result at the layer's value of the
    arguments as launched, and the arguments unchanged. -/
theorem run : θ_run defs (onTc (τ := τ) (main (F := Ideal))) ⟨m, fun _ => 0, ρ⟩ fun r => ∀ c : Dev nD,
      r.2.mem ((c.tc : Thread nD τ).loc main_v3)
        = Cert.Layer.layer (m ((c.tc : Thread nD τ).loc main_arg2)) (m ((c.tc : Thread nD τ).loc main_arg1))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 0).trans (((dats m 0 c).arrAt_in 0 rfl _).trans ((A_eq m c 0).trans (V_main_arg2 m c))),
       ((h c).1 2).trans (((dats m 0 c).arrAt_in 2 rfl _).trans ((A_eq m c 2).trans (V_main_arg3 m c))),
       ((h c).2 main_arg4 (Pipeline.mem_restRefs_of main_arg4 (by decide) (by decide))).trans (W_main_arg4 m (dats m) c)⟩)
    (run_main m ρ)

end Cert.KernelIdeal.Run

end
-- ==== Proof.RefLayer.lean ====
/-
  The reference's result is the layer's value.

  The reference multiplies the two matrices entrywise, takes the maximum with a zero constant repeated over the matrix,
  transposes the weight row into a column, forms the matrix product of the clipped matrix with that column (one contracted
  axis), and adds the bias repeated down the rows. Read at an index `i` over the extended reals: the product is the sum over the
  contracted coordinate `k` of the clipped matrix at `(i 0, k)` times the transposed weights at `(k, i 1)`, the latter being
  the weight row at `(0, k)` since the column's second coordinate is `0`.
-/
import proofs.«153280_j4191888081073_1_alg».proof.Proof.Gen.ReferenceIdeal.Read
import proofs.«153280_j4191888081073_1_alg».proof.Proof.Layer

noncomputable section

namespace Cert.ReferenceIdeal.Layer

open Idealize.ShloMosaic Idealize.ShloMosaic.ValueIdx Cert.ReferenceIdeal Cert.ReferenceIdeal.Gen Cert.ReferenceIdeal.Read

/-- The left operand of the product at contracted coordinate `k` is the matrix entry `(i 0, k)`. -/
theorem lidx_eq (i : S8192x1.Idx) (k : Fin 8192) : lidx_main_v3 i k = ix2 (i 0) k :=
  funext fun a => Fin.ext (by match a with | ⟨0, _⟩ => rfl | ⟨1, _⟩ => rfl)

/-- The right operand there, the transposed weights at `(k, i 1)`, is the weight row's entry `(0, k)`. -/
theorem ridx_eq (i : S8192x1.Idx) (k : Fin 8192) : idx_main_v2 (ridx_main_v3 i k) = ix2 (0 : Fin 1) k :=
  funext fun a => Fin.ext (by
    match a with
    | ⟨0, _⟩ => show (i 1).val = 0; have h1 : (i 1).val < 1 := (i 1).isLt; omega
    | ⟨1, _⟩ => rfl)

/-- The reference's last stage, as a function of the matrices `x2`, `x1` (multiplied in that order), the weight row `x3` and
    the bias `x4`, is the layer's value. -/
theorem val_eq (x1 x2 : (⟨S8192x8192, .f32⟩ : BufTy).Contents (Elt Ideal)) (x3 : (⟨S1x8192, .f32⟩ : BufTy).Contents (Elt Ideal))
    (x4 : (⟨S1, .f32⟩ : BufTy).Contents (Elt Ideal)) :
    val_main_v6 (F := Ideal) x1 x2 x3 x4 = Cert.Layer.layer x2 x1 x3 x4 := by
  funext i
  rw [val_main_v6_apply, val_main_v3_apply]
  show (∑ k : Fin 8192, val_main_v1 (F := Ideal) x1 x2 (lidx_main_v3 i k) * val_main_v2 (F := Ideal) x3 (ridx_main_v3 i k))
      + val_main_v5 (F := Ideal) x4 i = _
  unfold Cert.Layer.layer Cert.Layer.rowDot
  congr 1
  · refine Finset.sum_congr rfl fun k _ => ?_
    rw [val_main_v1_apply, val_main_v0_apply, val_main_call0_v0_apply, val_main_call0_cst_apply, val_main_v2_apply,
      lidx_eq, ridx_eq]
    show max (x2 (ix2 (i 0) k) * x1 (ix2 (i 0) k)) (Ideal.ofBits .f32 0x00000000#32) * x3 (ix2 (0 : Fin 1) k) = _
    rw [Ideal.ofBits_zero_f32]
  · exact Cert.Layer.bias_col_apply x4 bcast_S1_S1x1_1 bcast_S1x1_S8192x1_0_1 i

end Cert.ReferenceIdeal.Layer

end
-- ==== Proof.lean ====
/-
  The certificate: the kernel and the reference compute one function over the extended reals.

  For matrices `adjacency`, `Linv` ([8192, 8192]), a weight row `W` ([1, 8192]) and a bias `b` ([1]) both programs return the
  column whose entry at row `r` is

      (∑ k, max (adjacency r k · Linv r k) 0 · W 0 k) + b 0        (`Cert.Layer.layer`).

  The kernel forms it 128 rows at a time: on each block it clips the entrywise product at zero, multiplies by the repeated
  weight row and sums over the lanes; the 64 row blocks cover the output column, and the program then adds the spread bias.
  The reference clips the whole product, multiplies it as a matrix with the transposed weight row (one contracted axis) and
  adds the same spread bias. Read at an index these are the same sum of the same terms plus the same bias entry, so the equality
  needs no algebraic law and no finiteness of the inputs; the first input `x_e` is read by neither program.

  The frames of the two kernel programs are the generated ones; the reference's frame is its generated run with the result
  dropped; the idealization rewrote nothing, so `preserves` is `True`.
-/
import proofs.«153280_j4191888081073_1_alg».proof.Defs
import proofs.«153280_j4191888081073_1_alg».proof.Proof.Gen.Kernel
import proofs.«153280_j4191888081073_1_alg».proof.Proof.Gen.Kernel.Skeleton
import proofs.«153280_j4191888081073_1_alg».proof.Proof.Gen.Kernel.Launch
import proofs.«153280_j4191888081073_1_alg».proof.Proof.Gen.Kernel.Points
import proofs.«153280_j4191888081073_1_alg».proof.Proof.Gen.Kernel.Frame
import proofs.«153280_j4191888081073_1_alg».proof.Proof.Gen.KernelIdeal
import proofs.«153280_j4191888081073_1_alg».proof.Proof.Gen.KernelIdeal.Skeleton
import proofs.«153280_j4191888081073_1_alg».proof.Proof.Gen.KernelIdeal.Launch
import proofs.«153280_j4191888081073_1_alg».proof.Proof.Gen.KernelIdeal.Points
import proofs.«153280_j4191888081073_1_alg».proof.Proof.Gen.KernelIdeal.Frame
import proofs.«153280_j4191888081073_1_alg».proof.Proof.Gen.ReferenceIdeal
import proofs.«153280_j4191888081073_1_alg».proof.Proof.Gen.Pre_finite_inputs
import proofs.«153280_j4191888081073_1_alg».proof.Proof.Gen.ReferenceIdeal.Run
import proofs.«153280_j4191888081073_1_alg».proof.Proof.Gen.ReferenceIdeal.Read
import proofs.«153280_j4191888081073_1_alg».proof.Proof.KernelRun
import proofs.«153280_j4191888081073_1_alg».proof.Proof.RefLayer
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `layer` of the arguments: the kernel program's by its blocks and its added bias, the
    reference's by reading its operations at an index; the arguments agree. -/
theorem algebraic : Cert.algebraic_KernelIdeal_ReferenceIdeal := by
  intro m ρ m' ρ' _ hagree
  refine ⟨fun c => Cert.Layer.layer (m ((c.tc : Thread Cert.KernelIdeal.nD Cert.KernelIdeal.τ).loc Cert.KernelIdeal.main_arg2))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Layer.val_eq]
  obtain ⟨_, a1, a2, a3, a4⟩ := hagree c
  rw [a1, a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
